-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x2048 : Shape := ⟨2, ![16384, 2048]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x2048 : S_.BroadcastsInDim S16384x2048 (![] : Fin 0 → Fin S16384x2048.rank)
  reducesTo_S16384x2048_S_d0_1 : S16384x2048.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384 .f32) (main_arg1 : FVec F S16384x2048 .f32) (main_arg2 : IVec S16384 32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 2048#32
  let main_v13 : IVec S16384 32 := broadcastInDim S16384 ![] bcast_S_S16384 main_c_4
  let main_v14 : IVec S16384 1 := cmpi .sle main_arg2 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384 : Shape := ⟨1, ![16384]⟩
abbrev S16384x2048 : Shape := ⟨2, ![16384, 2048]⟩
abbrev S16384x1 : Shape := ⟨2, ![16384, 1]⟩
abbrev S1x1 : Shape := ⟨2, ![1, 1]⟩
abbrev S512x1 : Shape := ⟨2, ![512, 1]⟩
abbrev S512x2048 : Shape := ⟨2, ![512, 2048]⟩
abbrev S1 : Shape := ⟨1, ![1]⟩
abbrev S512 : Shape := ⟨1, ![512]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S16384, .f32⟩
  | .hbm, ⟨1, _⟩ => ⟨S16384x2048, .f32⟩
  | .hbm, ⟨2, _⟩ => ⟨S16384, .i32⟩
  | .hbm, ⟨3, _⟩ => ⟨S16384x1, .f32⟩
  | .hbm, ⟨4, _⟩ => ⟨S16384x1, .i32⟩
  | .hbm, ⟨5, _⟩ => ⟨S1x1, .f32⟩
  | .hbm, ⟨6, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S512x1, .i32⟩
  | .local _ .vmem, ⟨3, _⟩ => ⟨S512x1, .i32⟩
  | .local _ .vmem, ⟨4, _⟩ => ⟨S512x2048, .f32⟩
  | .local _ .vmem, ⟨5, _⟩ => ⟨S512x2048, .f32⟩
  | .local _ .vmem, ⟨6, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16384_S16384x1 : S16384.ShapeCasts S16384x1
  inb_S1x1_S1x1_0_0 : ∀ a, (![0, 0] : Fin 2 → Nat) a + S1x1.size a ≤ S1x1.size a
  h_S1x1 : 0 < S1x1.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  natLt_1_32 : 1 < 32
  reduces_S512x1_S1 : S512x1.Reduces [0] S1
  shapeCasts_S1_S1x1 : S1.ShapeCasts S1x1
  iota_S512x2048_d1_w32 : S512x2048.Iotas .tc 32 [1]
  broadcasts_S512x1_S512x2048 : S512x1.Broadcasts S512x2048
  reduces_S512x2048_S512 : S512x2048.Reduces [1] S512
  shapeCasts_S512_S512x1 : S512.ShapeCasts S512x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S16384x1.size a
  hwx0_0 : ∀ i : grid0.Coords, EltTy.bits .f32 = 32 ∨ (Rect.block (s := S16384x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384 : Shape := ⟨1, ![16384]⟩
abbrev S16384x2048 : Shape := ⟨2, ![16384, 2048]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S2048 : Shape := ⟨1, ![2048]⟩
abbrev S1x2048 : Shape := ⟨2, ![1, 2048]⟩

abbrev nBuf : Space → Nat
  | .hbm => 97
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384x2048, .f32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .i1⟩
  | .hbm, ⟨10, _⟩ => ⟨S_, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S_, .i32⟩
  | .hbm, ⟨46, _⟩ => ⟨S16384x1, .i32⟩
  | .hbm, ⟨47, _⟩ => ⟨S16384x1, .i32⟩
  | .hbm, ⟨48, _⟩ => ⟨S16384x1, .i32⟩
  | .hbm, ⟨49, _⟩ => ⟨S16384x1x1, .i32⟩
  | .hbm, ⟨50, _⟩ => ⟨S1, .i32⟩
  | .hbm, ⟨51, _⟩ => ⟨S_, .i32⟩
  | .hbm, ⟨52, _⟩ => ⟨S16384x1x1, .i32⟩
  | .hbm, ⟨53, _⟩ => ⟨S16384x1x1, .i1⟩
  | .hbm, ⟨54, _⟩ => ⟨S1x1x1, .i32⟩
  | .hbm, ⟨55, _⟩ => ⟨S16384x1x1, .i32⟩
  | .hbm, ⟨56, _⟩ => ⟨S16384x1x1, .i1⟩
  | .hbm, ⟨57, _⟩ => ⟨S16384x1x1, .i1⟩
  | .hbm, ⟨58, _⟩ => ⟨S_, .i1⟩
  | .hbm, ⟨59, _⟩ => ⟨S16384x1, .i1⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x2048, .f32⟩
  | .hbm, ⟨68, _⟩ => ⟨S16384x2048, .f32⟩
  | .hbm, ⟨69, _⟩ => ⟨S_, .f32⟩
  | .hbm, ⟨70, _⟩ => ⟨S16384x2048, .f32⟩
  | .hbm, ⟨71, _⟩ => ⟨S16384x2048, .f32⟩
  | .hbm, ⟨72, _⟩ => ⟨S2048, .i32⟩
  | .hbm, ⟨73, _⟩ => ⟨S1x2048, .i32⟩
  | .hbm, ⟨74, _⟩ => ⟨S16384x1, .i32⟩
  | .hbm, ⟨75, _⟩ => ⟨S16384x2048, .i32⟩
  | .hbm, ⟨76, _⟩ => ⟨S16384x2048, .i32⟩
  | .hbm, ⟨77, _⟩ => ⟨S16384x2048, .i1⟩
  | .hbm, ⟨78, _⟩ => ⟨S_, .f32⟩
  | .hbm, ⟨79, _⟩ => ⟨S_, .f32⟩
  | .hbm, ⟨80, _⟩ => ⟨S16384x2048, .f32⟩
  | .hbm, ⟨81, _⟩ => ⟨S16384x2048, .f32⟩
  | .hbm, ⟨82, _⟩ => ⟨S_, .f32⟩
  | .hbm, ⟨83, _⟩ => ⟨S16384, .f32⟩
  | .hbm, ⟨84, _⟩ => ⟨S_, .f32⟩
  | .hbm, ⟨85, _⟩ => ⟨S16384, .f32⟩
  | .hbm, ⟨86, _⟩ => ⟨S16384, .f32⟩
  | .hbm, ⟨87, _⟩ => ⟨S_, .i32⟩
  | .hbm, ⟨88, _⟩ => ⟨S16384, .i32⟩
  | .hbm, ⟨89, _⟩ => ⟨S16384, .i1⟩
  | .hbm, ⟨90, _⟩ => ⟨S_, .f32⟩
  | .hbm, ⟨91, _⟩ => ⟨S_, .f32⟩
  | .hbm, ⟨92, _⟩ => ⟨S16384, .f32⟩
  | .hbm, ⟨93, _⟩ => ⟨S16384, .f32⟩
  | .hbm, ⟨94, _⟩ => ⟨S_, .f32⟩
  | .hbm, ⟨95, _⟩ => ⟨S_, .f32⟩
  | .hbm, ⟨96, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_cst : Ref sig .tc := ⟨.hbm, 61, rfl⟩
abbrev main_call1_v14 : Ref sig .tc := ⟨.hbm, 62, rfl⟩
abbrev main_v27 : Ref sig .tc := ⟨.hbm, 63, rfl⟩
abbrev main_cst_8 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_9 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_10 : Ref sig .tc := ⟨.hbm, 78, rfl⟩
abbrev main_call2_v0 : Ref sig .tc := ⟨.hbm, 79, rfl⟩
abbrev main_call2_v1 : Ref sig .tc := ⟨.hbm, 80, rfl⟩
abbrev main_v40 : Ref sig .tc := ⟨.hbm, 81, rfl⟩
abbrev main_cst_11 : Ref sig .tc := ⟨.hbm, 82, rfl⟩
abbrev main_v41 : Ref sig .tc := ⟨.hbm, 83, rfl⟩
abbrev main_cst_12 : Ref sig .tc := ⟨.hbm, 84, rfl⟩
abbrev main_v42 : Ref sig .tc := ⟨.hbm, 85, rfl⟩
abbrev main_v43 : Ref sig .tc := ⟨.hbm, 86, rfl⟩
abbrev main_c_13 : Ref sig .tc := ⟨.hbm, 87, rfl⟩
abbrev main_v44 : Ref sig .tc := ⟨.hbm, 88, rfl⟩
abbrev main_v45 : Ref sig .tc := ⟨.hbm, 89, rfl⟩
abbrev main_cst_14 : Ref sig .tc := ⟨.hbm, 90, rfl⟩
abbrev main_call3_v0 : Ref sig .tc := ⟨.hbm, 91, rfl⟩
abbrev main_call3_v1 : Ref sig .tc := ⟨.hbm, 92, rfl⟩
abbrev main_v46 : Ref sig .tc := ⟨.hbm, 93, rfl⟩
abbrev main_cst_15 : Ref sig .tc := ⟨.hbm, 94, rfl⟩
abbrev main_v47 : Ref sig .tc := ⟨.hbm, 95, rfl⟩
abbrev main_v48 : Ref sig .tc := ⟨.hbm, 96, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  reducesTo_S16384_S_d0 : S16384.ReducesTo [0] S_
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  bcast_S16384x1_S16384x2048_0_1 : S16384x1.BroadcastsInDim S16384x2048 (![0, 1] : Fin 2 → Fin S16384x2048.rank)
  bcast_S_S16384x2048 : S_.BroadcastsInDim S16384x2048 (![] : Fin 0 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S16384_d1 : S16384x2048.ReducesTo [1] S16384
  gather_S16384x2048_S16384x1x1_S16384x1_n_1_0_0_1_2_11_wf : GatherDims.WF S16384x2048 S16384x1x1 S16384x1 [] [1] [0] [1] [0] 2 ![1, 1]

variable [Facts₀]

def gather_S16384x2048_S16384x1x1_S16384x1_n_1_0_0_1_2_11 : GatherDims S16384x2048 S16384x1x1 S16384x1 where
  offsetDims := []
  collapsedSliceDims := [1]
  operandBatchingDims := [0]
  startIndicesBatchingDims := [0]
  startIndexMap := [1]
  indexVectorDim := 2
  sliceSizes := ![1, 1]
  wf := gather_S16384x2048_S16384x1x1_S16384x1_n_1_0_0_1_2_11_wf

class Facts : Prop extends Facts₀ where

variable [Facts]
-- ==== Proof.Spec.lean ====
/-
  The loss that the kernel and its reference both compute, as ONE function of the three argument arrays over the
  extended reals, in two arrangements.

  Per sample r (16384 of them) with probability p = positive_prob[r], label t = target[r] (an int32 word) and score
  row x = predictions[r, ·] (2048 classes):

    · the weighted binary cross-entropy term  w · (pos · max(log p, −100) + (1 − pos) · max(log(1 + (−p)), −100)),
      pos = [t ≠ 0] and w = 2 where pos < 1, else 1;
    · the multi-margin term, counted only where t − 1 > −1:  (1/2048) · ∑_{j ≠ y} max(0, 1/2 − x[y] + x[j]),  y = max(t − 1, 0),
      where x[y] is spelt as the masked sum ∑_j [j = y] · x[j] (a one-term sum when y is a class index).

  The loss is  −(∑_r bce_r) + ∑_r mml_r  (`loss`).  A grid of 32 tiles of 512 samples accumulates it as a running value
  that starts from 0 and at tile n adds first −(∑_{r in tile n} bce_r) and then ∑_{r in tile n} mml_r (`running`).

  Every float literal stays the word both programs print; integer arithmetic on the label is the programs' own
  (wrapping subtraction, signed maximum and comparisons on 32-bit words).
-/
import Idealize.ShloMosaic.PureOps.Ideal
import Idealize.ShloMosaic.Lib.ValueIdx

noncomputable section

open Idealize.ShloMosaic Idealize.ShloMosaic.ValueIdx
open scoped BigOperators

namespace Cert.Margin

/-- Per-sample arrays: [16384]; the score matrix: [16384, 2048]. -/
abbrev SB : Shape := ⟨1, ![16384]⟩
abbrev SBC : Shape := ⟨2, ![16384, 2048]⟩

/-! ### The literals, as the words the programs print -/

/-- 0.0 -/
abbrev zeroW : EReal := Ideal.ofBits .f32 0x00000000#32
/-- 1.0 -/
abbrev oneW : EReal := Ideal.ofBits .f32 0x3F800000#32
/-- 2.0: the weight of a negative sample -/
abbrev twoW : EReal := Ideal.ofBits .f32 0x40000000#32
/-- −100.0: the floor under both logarithms -/
abbrev floorW : EReal := Ideal.ofBits .f32 0xC2C80000#32
/-- 0.5: the margin -/
abbrev marginW : EReal := Ideal.ofBits .f32 0x3F000000#32
/-- 2048.0: the number of classes -/
abbrev classesW : EReal := Ideal.ofBits .f32 0x45000000#32

/-! ### The cross-entropy term of one sample -/

/-- pos = [t ≠ 0] as a float: 0 or 1. -/
def posOf (t : BitVec 32) : EReal := FloatOps.uitofp (F := Ideal) .f32 (IntOp.cmpi .ne t 0#32)

/-- The weight: 2 where pos < 1 (a negative sample), else 1. -/
def weightOf (t : BitVec 32) : EReal :=
  Scalar.select (FloatOps.cmpf (F := Ideal) (φ := .f32) .olt (posOf t) oneW) twoW oneW

/-- w · (pos · max(log p, −100) + (1 − pos) · max(log(1 + (−p)), −100)). -/
def bceTerm (p : EReal) (t : BitVec 32) : EReal :=
  weightOf t * (posOf t * max (Ideal.log p) floorW + (oneW - posOf t) * max (Ideal.log1p (-p)) floorW)

/-! ### The margin term of one sample -/

/-- The class index the label names: y = max(t − 1, 0), on 32-bit words. -/
def yOf (t : BitVec 32) : BitVec 32 := IntOp.maxsi (IntOp.subi t 1#32) 0#32

/-- Whether the sample counts in the margin sum: t − 1 > −1, signed. -/
def validOf (t : BitVec 32) : BitVec 1 := IntOp.cmpi .sgt (IntOp.subi t 1#32) 4294967295#32

/-- [j = y]: column j is the label's class. -/
def hitOf (t : BitVec 32) (j : Fin 2048) : BitVec 1 := IntOp.cmpi .eq (BitVec.ofNat 32 j.val) (yOf t)

/-- x[y] as the masked sum ∑_j [j = y] · x[j]. -/
def xySum (row : Fin 2048 → EReal) (t : BitVec 32) : EReal :=
  ∑ j : Fin 2048, Scalar.select (hitOf t j) (row j) zeroW

/-- max(0, (1/2 − x[y]) + x[j]). -/
def hinge (xy x : EReal) : EReal := max zeroW ((marginW - xy) + x)

/-- The margin term given the score at the label's class: where the sample counts,
    (0 + ∑_j (0 if j = y else hinge)) / 2048; else 0. -/
def mmlTerm (row : Fin 2048 → EReal) (t : BitVec 32) (xy : EReal) : EReal :=
  Scalar.select (validOf t)
    (Ideal.div (zeroW + ∑ j : Fin 2048, Scalar.select (hitOf t j) zeroW (hinge xy (row j))) classesW)
    zeroW

/-- Row r of the score matrix. -/
def rowOf (pred : SBC.Idx → EReal) (r : Fin 16384) : Fin 2048 → EReal := fun j => pred (ix2 r j)

/-- The margin term of sample r, its x[y] the masked sum. -/
def mmlAt (pred : SBC.Idx → EReal) (t : BitVec 32) (r : Fin 16384) : EReal :=
  mmlTerm (rowOf pred r) t (xySum (rowOf pred r) t)

/-! ### The loss, whole and tile by tile -/

/-- −(0 + ∑_r bce_r) + (0 + ∑_r mml_r). -/
def loss (pp : SB.Idx → EReal) (pred : SBC.Idx → EReal) (tgt : SB.Idx → BitVec 32) : EReal :=
  -(zeroW + ∑ i : SB.Idx, bceTerm (pp i) (tgt i)) + (zeroW + ∑ i : SB.Idx, mmlAt pred (tgt i) (i 0))

/-- Sample number n (read modulo 16384, so that it is total). -/
def rowAt (n : ℕ) : Fin 16384 := ⟨n % 16384, Nat.mod_lt _ (by decide)⟩

/-- ∑ of the cross-entropy terms of tile n: samples 512 n … 512 n + 511. -/
def tileBce (pp : SB.Idx → EReal) (tgt : SB.Idx → BitVec 32) (n : ℕ) : EReal :=
  ∑ k : Fin 512, bceTerm (pp (ix1 (rowAt (n * 512 + k.val)))) (tgt (ix1 (rowAt (n * 512 + k.val))))

/-- ∑ of the margin terms of tile n. -/
def tileMml (pred : SBC.Idx → EReal) (tgt : SB.Idx → BitVec 32) (n : ℕ) : EReal :=
  ∑ k : Fin 512, mmlAt pred (tgt (ix1 (rowAt (n * 512 + k.val)))) (rowAt (n * 512 + k.val))

/-- The accumulator after tile n: from 0, each tile adds (0 − its cross-entropy sum) and then its margin sum. -/
def running (pp : SB.Idx → EReal) (pred : SBC.Idx → EReal) (tgt : SB.Idx → BitVec 32) : ℕ → EReal
  | 0 => (zeroW + (zeroW - tileBce pp tgt 0)) + tileMml pred tgt 0
  | n + 1 => (running pp pred tgt n + (zeroW - tileBce pp tgt (n + 1))) + tileMml pred tgt (n + 1)

end Cert.Margin

end
-- ==== Proof.LibPropagate.lean ====
/-
  Two finite contractions in either order, over the extended reals.

  Let H be a family indexed by N × E, d and Y families over N and ide a family over E, all with real entries.  Contracting H with
  the scaled family Y·d over N, scaling by ide, contracting with H over E and scaling by d gives, at i,

      (∑ e, H i e * ((∑ j, H j e * (Y j * d j)) * ide e)) * d i,

  and forming the kernel G i j = ∑ e, ((d i * H i e) * ide e) * (d j * H j e) first and then contracting it with Y gives

      ∑ j, G i j * Y j.

  The two are one number: distribute the outer factors into the inner sum, exchange the two finite sums, and compare the
  summands as products of the same six reals.  Distributivity of * over + fails at the infinities of the extended reals, so
  every entry is asked to be a real number; the identity is then the image of the identity over ℝ under the coercion, which
  commutes with *, + and finite sums.

  The file also regroups a sum of a·b terms into a blocks of b terms.
-/
import Mathlib.Data.EReal.Operations
import Mathlib.Algebra.BigOperators.Ring.Finset
import Mathlib.Algebra.BigOperators.Fin
import Mathlib.Logic.Equiv.Fin.Basic
import Mathlib.Tactic.Ring

open scoped BigOperators

namespace Cert.Lib.Propagate

/-! ### Real entries are closed under +, * and finite sums -/

/-- The sum of two extended reals that are real numbers is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two extended reals that are real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion from ℝ commutes with a finite sum: by induction on the index set, one term at a time. -/
theorem coe_finsetSum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a finite set of extended reals that are all real numbers is a real number. -/
theorem finsetSum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsetSum]; exact Finset.sum_congr rfl fun i _ => hg i⟩

/-- A sum over a finite type of extended reals that are all real numbers is a real number. -/
theorem sum_real {ι : Type} [Fintype ι] (f : ι → EReal) (hf : ∀ i, ∃ r : ℝ, f i = (r : EReal)) :
    ∃ r : ℝ, ∑ i, f i = (r : EReal) :=
  finsetSum_real Finset.univ f hf

/-! ### The two orders of contraction -/

section Propagate

variable {N E : Type} [Fintype N] [Fintype E]

/-- Over ℝ: scaling and contracting over N first and over E second equals contracting the kernel
    `∑ e, ((d i * H i e) * ide e) * (d j * H j e)` with `Y`.  Both sides are the double sum over (j, e) of the product
    of the six factors `d i, H i e, ide e, d j, H j e, Y j`. -/
theorem propagate_eq_real (h : N → E → ℝ) (δ : N → ℝ) (ε : E → ℝ) (y : N → ℝ) (i : N) :
    (∑ e, h i e * ((∑ j, h j e * (y j * δ j)) * ε e)) * δ i
      = ∑ j, (∑ e, ((δ i * h i e) * ε e) * (δ j * h j e)) * y j := by
  have hl : (∑ e, h i e * ((∑ j, h j e * (y j * δ j)) * ε e)) * δ i
      = ∑ e, ∑ j, δ i * h i e * ε e * (δ j * h j e) * y j := by
    rw [Finset.sum_mul]
    refine Finset.sum_congr rfl fun e _ => ?_
    rw [Finset.sum_mul, Finset.mul_sum, Finset.sum_mul]
    refine Finset.sum_congr rfl fun j _ => ?_
    ring
  have hr : (∑ j, (∑ e, ((δ i * h i e) * ε e) * (δ j * h j e)) * y j)
      = ∑ j, ∑ e, δ i * h i e * ε e * (δ j * h j e) * y j :=
    Finset.sum_congr rfl fun j _ => Finset.sum_mul _ _ _
  rw [hl, hr, Finset.sum_comm]

/-- Over the extended reals, with every entry a real number: the contraction over N first and E second, scaled by `ide`
    between and by `d` at both ends, equals the kernel `∑ e, ((d i * H i e) * ide e) * (d j * H j e)` contracted with `Y`.
    The real witnesses are chosen, the coercion is moved outside both sides, and the identity over ℝ closes it. -/
theorem propagate_eq (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    (∑ e, H i e * ((∑ j, H j e * (Y j * d j)) * ide e)) * d i
      = ∑ j, (∑ e, ((d i * H i e) * ide e) * (d j * H j e)) * Y j := by
  choose h hh using hH
  choose δ hδ using hd
  choose ε hε using hide
  choose y hy using hY
  have hl : (∑ e, H i e * ((∑ j, H j e * (Y j * d j)) * ide e)) * d i
      = (((∑ e, h i e * ((∑ j, h j e * (y j * δ j)) * ε e)) * δ i : ℝ) : EReal) := by
    simp only [hh, hδ, hε, hy, EReal.coe_mul, coe_finsetSum]
  have hr : (∑ j, (∑ e, ((d i * H i e) * ide e) * (d j * H j e)) * Y j)
      = ((∑ j, (∑ e, ((δ i * h i e) * ε e) * (δ j * h j e)) * y j : ℝ) : EReal) := by
    simp only [hh, hδ, hε, hy, EReal.coe_mul, coe_finsetSum]
  rw [hl, hr, propagate_eq_real]

/-- With every entry a real number, the propagated value is a real number: it is built from the entries by products and
    finite sums only. -/
theorem propagate_real (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    ∃ r : ℝ, (∑ e, H i e * ((∑ j, H j e * (Y j * d j)) * ide e)) * d i = (r : EReal) :=
  mul_real
    (sum_real _ fun e =>
      mul_real (hH i e) (mul_real (sum_real _ fun j => mul_real (hH j e) (mul_real (hY j) (hd j))) (hide e)))
    (hd i)

end Propagate

/-! ### A sum of a·b terms as a blocks of b -/

/-- Regrouping: the sum of `g` over the first `a * b` naturals is the sum over `a` consecutive blocks of `b` terms, block
    `t` holding the arguments `t * b + r` for `r < b`.  The pairs (t, r) and the naturals below `a * b` correspond by
    `(t, r) ↦ r + b * t`. -/
theorem sum_blocks {M : Type} [AddCommMonoid M] (a b : ℕ) (g : ℕ → M) :
    ∑ t : Fin a, ∑ r : Fin b, g (t.val * b + r.val) = ∑ j : Fin (a * b), g j.val := by
  rw [← Fintype.sum_prod_type', ← (finProdFinEquiv (m := a) (n := b)).sum_comp]
  refine Fintype.sum_congr _ _ fun p => ?_
  rw [finProdFinEquiv_apply_val, Nat.add_comm, Nat.mul_comm]

/-- The regrouping at 10000 = 25 · 400: 25 blocks of 400 consecutive terms. -/
theorem sum_blocks_25_400 {M : Type} [AddCommMonoid M] (g : ℕ → M) :
    (∑ t : Fin 25, ∑ r : Fin 400, g (t.val * 400 + r.val)) = ∑ j : Fin 10000, g j.val :=
  sum_blocks 25 400 g

end Cert.Lib.Propagate
-- ==== Proof.Algebra.lean ====
/-
  The tile-by-tile running value is the loss.

  Over the extended reals + is commutative and associative, so the 32 tiles' margin sums regroup freely into the sum over
  all 16384 samples.  The cross-entropy sums enter the running value NEGATED tile by tile, and the loss negates their
  total: −(a + b) = (−a) + (−b) fails on the extended reals when a and b are opposite infinities, so that step asks every
  cross-entropy term to be a real number — which it is when the probability is a real number: max(log p, −100) and
  max(log(1 + (−p)), −100) are then real (a logarithm of a real is a real or −∞, and the floor −100 removes −∞), and the
  weight and the 0/1 factor are real.
-/
import proofs.«428601_j82635170775477_1_alg».proof.Proof.Spec
import proofs.«428601_j82635170775477_1_alg».proof.Proof.LibPropagate
import Idealize.ShloMosaic.PureOps.Ideal.Laws

noncomputable section

open Idealize.ShloMosaic Idealize.ShloMosaic.ValueIdx
open scoped BigOperators

namespace Cert.Margin

/-! ### The literal words are real numbers -/

/-- The word 0.0 is 0. -/
theorem zeroW_eq : zeroW = 0 := Ideal.ofBits_zero_f32

/-- The word 1.0 is the real number 1. -/
theorem oneW_eq : oneW = ((1 : ℝ) : EReal) := by
  simp [Ideal.ofBits, Ideal.ieee, -EReal.coe_mul]; norm_num

/-- The word 2.0 is the real number 2. -/
theorem twoW_eq : twoW = ((2 : ℝ) : EReal) := by
  simp [Ideal.ofBits, Ideal.ieee, -EReal.coe_mul]; norm_num

/-- The word −100.0 is the real number −100. -/
theorem floorW_eq : floorW = ((-100 : ℝ) : EReal) := by
  simp [Ideal.ofBits, Ideal.ieee, -EReal.coe_mul]; norm_num

/-! ### Every cross-entropy term is a real number -/

/-- The 0/1 factor is a natural number read as a real. -/
theorem posOf_real (t : BitVec 32) : ∃ r : ℝ, posOf t = (r : EReal) := ⟨_, rfl⟩

/-- The weight is one of the two words 2.0 and 1.0. -/
theorem weightOf_real (t : BitVec 32) : ∃ r : ℝ, weightOf t = (r : EReal) := by
  unfold weightOf Scalar.select
  split_ifs
  · exact ⟨2, twoW_eq⟩
  · exact ⟨1, oneW_eq⟩

/-- The logarithm of a real number is −∞ or a real number; its maximum with −100 is a real number either way. -/
theorem logFloor_real (x : ℝ) : ∃ r : ℝ, max (Ideal.log (x : EReal)) floorW = (r : EReal) := by
  rw [floorW_eq, Ideal.log_coe]
  split_ifs
  · exact ⟨-100, max_eq_right bot_le⟩
  · exact ⟨max (Real.log x) (-100), (EReal.coe_strictMono.monotone.map_max).symm⟩

/-- 1 + (−p) is the real number 1 − p, so the floored log(1 + (−p)) is a real number as well. -/
theorem log1pFloor_real (p : ℝ) : ∃ r : ℝ, max (Ideal.log1p (-(p : EReal))) floorW = (r : EReal) := by
  have h : (1 : EReal) + -(p : EReal) = ((1 - p : ℝ) : EReal) := by
    rw [sub_eq_add_neg, EReal.coe_add, EReal.coe_neg, EReal.coe_one]
  unfold Ideal.log1p
  rw [h]
  exact logFloor_real _

/-- 1 − pos is a difference of two real numbers. -/
theorem oneSubPos_real (t : BitVec 32) : ∃ r : ℝ, oneW - posOf t = (r : EReal) := by
  obtain ⟨a, ha⟩ := posOf_real t
  exact ⟨1 - a, by rw [ha, oneW_eq, EReal.coe_sub]⟩

/-- The cross-entropy term at a real probability: products and a sum of real numbers. -/
theorem bceTerm_real (p : ℝ) (t : BitVec 32) : ∃ r : ℝ, bceTerm (p : EReal) t = (r : EReal) :=
  Cert.Lib.Propagate.mul_real (weightOf_real t)
    (Cert.Lib.Propagate.add_real
      (Cert.Lib.Propagate.mul_real (posOf_real t) (logFloor_real p))
      (Cert.Lib.Propagate.mul_real (oneSubPos_real t) (log1pFloor_real p)))

/-! ### The running value as two sums over the tiles -/

/-- After tile n the accumulator is the sum of the tiles' negated cross-entropy sums plus the sum of the tiles' margin
    sums: + is commutative and associative, and the starting word is 0. -/
theorem running_split (pp : SB.Idx → EReal) (pred : SBC.Idx → EReal) (tgt : SB.Idx → BitVec 32) (n : ℕ) :
    running pp pred tgt n
      = (∑ t ∈ Finset.range (n + 1), (zeroW - tileBce pp tgt t))
        + ∑ t ∈ Finset.range (n + 1), tileMml pred tgt t := by
  induction n with
  | zero =>
    rw [Finset.sum_range_one, Finset.sum_range_one]
    show (zeroW + (zeroW - tileBce pp tgt 0)) + tileMml pred tgt 0 = _
    rw [zeroW_eq, zero_add]
  | succ n ih =>
    rw [Finset.sum_range_succ _ (n + 1), Finset.sum_range_succ _ (n + 1)]
    show (running pp pred tgt n + (zeroW - tileBce pp tgt (n + 1))) + tileMml pred tgt (n + 1) = _
    rw [ih, add_assoc, add_add_add_comm]

/-- 0 − f summed is −(∑ f) when every f is a real number: the identity over ℝ, carried by the coercion. -/
theorem sum_zero_sub_real {ι : Type} (s : Finset ι) (f : ι → EReal) (hf : ∀ i, ∃ r : ℝ, f i = (r : EReal)) :
    ∑ i ∈ s, (zeroW - f i) = -(∑ i ∈ s, f i) := by
  choose g hg using hf
  calc ∑ i ∈ s, (zeroW - f i) = ∑ i ∈ s, ((-(g i) : ℝ) : EReal) :=
        Finset.sum_congr rfl fun i _ => by rw [hg i, zeroW_eq, zero_sub, EReal.coe_neg]
    _ = ((∑ i ∈ s, -(g i) : ℝ) : EReal) := (Cert.Lib.Propagate.coe_finsetSum s _).symm
    _ = ((-(∑ i ∈ s, g i) : ℝ) : EReal) := by rw [Finset.sum_neg_distrib]
    _ = -(((∑ i ∈ s, g i : ℝ)) : EReal) := EReal.coe_neg _
    _ = -(∑ i ∈ s, (g i : EReal)) := by rw [Cert.Lib.Propagate.coe_finsetSum]
    _ = -(∑ i ∈ s, f i) := congrArg Neg.neg (Finset.sum_congr rfl fun i _ => (hg i).symm)

/-! ### 32 tiles of 512 samples are the 16384 samples -/

/-- A per-sample index is its one coordinate. -/
def idxEquiv1 : SB.Idx ≃ Fin 16384 where
  toFun i := i 0
  invFun r := ix1 r
  left_inv i := (eq_ix1 i).symm
  right_inv _ := rfl

/-- So a sum over the per-sample indices is the sum over their coordinates. -/
theorem sum_idx1 {M : Type} [AddCommMonoid M] (f : SB.Idx → M) : ∑ i, f i = ∑ r : Fin 16384, f (ix1 r) := by
  rw [← Equiv.sum_comp idxEquiv1.symm f]
  rfl

/-- Below 16384 the sample number is read as itself. -/
theorem rowAt_val (j : Fin 16384) : rowAt j.val = j := Fin.ext (Nat.mod_eq_of_lt j.isLt)

/-- The tiles' sums, added over the 32 tiles, are the sum over all samples. -/
theorem sum_tiles {M : Type} [AddCommMonoid M] (F : Fin 16384 → M) :
    ∑ t ∈ Finset.range 32, ∑ k : Fin 512, F (rowAt (t * 512 + k.val)) = ∑ r : Fin 16384, F r := by
  refine (Finset.sum_range _).trans ((Cert.Lib.Propagate.sum_blocks 32 512 fun n => F (rowAt n)).trans ?_)
  show ∑ j : Fin 16384, F (rowAt j.val) = _
  exact Finset.sum_congr rfl fun j _ => by rw [rowAt_val]

/-! ### The theorem -/

/-- With every probability a real number, the accumulator after the last tile (tile 31) is the loss. -/
theorem running_eq_loss (pp : SB.Idx → EReal) (pred : SBC.Idx → EReal) (tgt : SB.Idx → BitVec 32)
    (hpp : ∀ i, ∃ r : ℝ, pp i = (r : EReal)) : running pp pred tgt 31 = loss pp pred tgt := by
  have hb : ∀ i, ∃ r : ℝ, bceTerm (pp i) (tgt i) = (r : EReal) := fun i => by
    obtain ⟨p, hp⟩ := hpp i
    rw [hp]
    exact bceTerm_real p _
  have htile : ∀ t, ∃ r : ℝ, tileBce pp tgt t = (r : EReal) := fun t =>
    Cert.Lib.Propagate.sum_real _ fun k => hb _
  have h1 : ∑ t ∈ Finset.range (31 + 1), tileBce pp tgt t = ∑ i : SB.Idx, bceTerm (pp i) (tgt i) := by
    rw [sum_idx1]
    exact sum_tiles fun r => bceTerm (pp (ix1 r)) (tgt (ix1 r))
  have h2 : ∑ t ∈ Finset.range (31 + 1), tileMml pred tgt t = ∑ i : SB.Idx, mmlAt pred (tgt i) (i 0) := by
    rw [sum_idx1]
    exact sum_tiles fun r => mmlAt pred (tgt (ix1 r)) r
  rw [running_split, sum_zero_sub_real _ _ htile, h1, h2]
  unfold loss
  rw [zeroW_eq, zero_add, zero_add]

end Cert.Margin

end
-- ==== Proof.PreDecode.lean ====
/-
  What the precondition says, entry by entry: every probability is a real number, and every label lies in 0 … 2048, so
  that its class index y = max(t − 1, 0) is below 2048.

  The precondition is a conjunction of four "for all entries" statements, each a fold of the entrywise bits by
  conjunction starting from 1. Such a fold is 1 only if every bit folded in is 1, so each conjunct gives its comparison at
  every entry: |p| < +∞ for the probabilities, and 0 ≤ t ≤ 2048 (signed) for the labels. An extended real whose absolute
  value max(a, −a) is below +∞ is neither −∞ nor +∞, hence a real. A 32-bit word with 0 ≤ t ≤ 2048 signed has unsigned
  value at most 2048; t − 1 wraps to −1 at t = 0, where the signed maximum with 0 is 0, and otherwise is t − 1 ≤ 2047.
-/
import proofs.«428601_j82635170775477_1_alg».proof.Pre_finite_inputs
import proofs.«428601_j82635170775477_1_alg».proof.Proof.Gen.Pre_finite_inputs
import proofs.«428601_j82635170775477_1_alg».proof.Proof.Spec
import Idealize.ShloMosaic.Lib.ReduceAll
import Idealize.ShloMosaic.Lib.StableHlo.Predicate

noncomputable section

open Idealize.ShloMosaic Idealize.ShloMosaic.ValueIdx

namespace Cert.Margin

open Cert.Pre_finite_inputs

/-- The rank-0 shape has exactly one index. -/
instance subsingleton_scalar_idx : Subsingleton S_.Idx := ⟨fun a b => funext fun d => d.elim0⟩

/-- The precondition read at each entry: |p| < +∞ for every probability, and 0 ≤ t and t ≤ 2048 (signed) for every
    label. (The second conjunct, on the score matrix, is not needed here.) -/
theorem pre_facts (x0 : FVec Ideal S16384 .f32) (x1 : FVec Ideal S16384x2048 .f32) (x2 : IVec S16384 32)
    (h : Cert.Pre_finite_inputs.fn (F := Ideal) x0 x1 x2 = fun _ => 1#1) :
    (∀ i : S16384.Idx, Ideal.cmp .olt (max (x0 i) (-(x0 i))) (Ideal.ofBits .f32 0x7F800000#32) = 1#1)
    ∧ (∀ i : S16384.Idx, IntOp.cmpi .sge (x2 i) 0#32 = 1#1)
    ∧ (∀ i : S16384.Idx, IntOp.cmpi .sle (x2 i) 2048#32 = 1#1) := by
  have h0 := congrFun h ix0
  dsimp only [fn, fn_part1] at h0
  -- ((A ∧ B) ∧ C) ∧ D, each of A … D a conjunction over all entries
  obtain ⟨h12, h15⟩ := IntOp.andi_eq_one.1 h0
  obtain ⟨h8, h11⟩ := IntOp.andi_eq_one.1 h12
  obtain ⟨h3, _⟩ := IntOp.andi_eq_one.1 h8
  refine ⟨fun i => ?_, fun i => ?_, fun i => ?_⟩
  · exact Host.reduce_andi_all _ _ _ _ _ h3 i
  · exact Host.reduce_andi_all _ _ _ _ _ h11 i
  · exact Host.reduce_andi_all _ _ _ _ _ h15 i

/-- An extended real with max(a, −a) < +∞ is a real: at −∞ and at +∞ the maximum is +∞. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  simp only [Ideal.cmp, StableHlo.Predicate.ofBool_eq_one_iff, decide_eq_true_eq] at h
  induction a using EReal.rec with
  | bot => simp at h
  | coe r => exact ⟨r, rfl⟩
  | top => simp at h

/-- A label with 0 ≤ t ≤ 2048 (signed) has class index max(t − 1, 0) < 2048. -/
theorem yOf_lt (t : BitVec 32) (hge : IntOp.cmpi .sge t 0#32 = 1#1) (hle : IntOp.cmpi .sle t 2048#32 = 1#1) :
    (yOf t).toNat < 2048 := by
  simp only [IntOp.cmpi, StableHlo.Predicate.ofBool_eq_one_iff, BitVec.sle, decide_eq_true_eq] at hge hle
  have h0 : (0#32 : BitVec 32).toInt = 0 := by decide
  have h2048 : (2048#32 : BitVec 32).toInt = 2048 := by decide
  rw [h0] at hge
  rw [h2048] at hle
  have hlt := t.isLt
  -- a non-negative signed value is the unsigned value
  have ht : t.toNat ≤ 2048 := by
    rw [BitVec.toInt_eq_toNat_cond] at hge hle
    split at hge <;> omega
  unfold yOf IntOp.maxsi IntOp.subi
  split
  · -- 0 < t − 1 signed: then t ≥ 1 and t − 1 does not wrap
    rename_i hc
    simp only [BitVec.slt, h0, decide_eq_true_eq] at hc
    rw [BitVec.toInt_eq_toNat_cond, BitVec.toNat_sub] at hc
    rw [BitVec.toNat_sub]
    simp only [BitVec.toNat_ofNat] at hc ⊢
    split at hc <;> omega
  · decide

/-- Under the precondition every probability is a real number. -/
theorem prob_real_of_pre (x0 : FVec Ideal S16384 .f32) (x1 : FVec Ideal S16384x2048 .f32) (x2 : IVec S16384 32)
    (h : Cert.Pre_finite_inputs.fn (F := Ideal) x0 x1 x2 = fun _ => 1#1) :
    ∀ i : S16384.Idx, ∃ r : ℝ, x0 i = (r : EReal) := by
  intro i
  exact real_of_abs_lt_top (x0 i) ((pre_facts x0 x1 x2 h).1 i)

/-- Under the precondition every label's class index is a class index. -/
theorem class_index_of_pre (x0 : FVec Ideal S16384 .f32) (x1 : FVec Ideal S16384x2048 .f32) (x2 : IVec S16384 32)
    (h : Cert.Pre_finite_inputs.fn (F := Ideal) x0 x1 x2 = fun _ => 1#1) :
    ∀ i : S16384.Idx, (yOf (x2 i)).toNat < 2048 := by
  intro i
  exact yOf_lt (x2 i) ((pre_facts x0 x1 x2 h).2.1 i) ((pre_facts x0 x1 x2 h).2.2 i)

end Cert.Margin

end
-- ==== Proof.RefLoss.lean ====
/-
  The reference computes the loss: its result, read one operation at a time, is `Cert.Margin.loss` of its arguments —
  provided every label's class index y = max(t − 1, 0) is a class index (y < 2048), which is where the reference's
  indexed read of x[y] is defined: there its bounds test passes, the gather reads x[r, y], and that one entry is the
  masked sum ∑_j [j = y] · x[r, j].

  The steps. (1) A class index y < 2048 is, as a signed 32-bit word, non-negative and at most 2047, and its signed
  reading clamped into [0, 2047] is y itself; so the negative-index normalisation leaves it, the bounds test is 1 at
  every index, and its "and" over the size-one axis is 1. (2) The batched indexed read at (r, 0) is the score matrix at
  (r, the start index of row r read signed and clamped into [0, 2047]), which by (1) is x[r, y]. (3) The masked sum
  ∑_j [j = y] · x[r, j] has the single non-zero term j = y, since for j < 2048 the word of j equals y exactly when
  j = y as numbers. (4) Everything else is the reference's own arrangement read one operation at a time.
-/
import proofs.«428601_j82635170775477_1_alg».proof.Proof.RefRead
import proofs.«428601_j82635170775477_1_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

open Idealize.ShloMosaic Idealize.ShloMosaic.ValueIdx
open scoped BigOperators

namespace Cert.Margin

open Cert.ReferenceIdeal Cert.ReferenceIdeal.Gen Cert.ReferenceIdeal.ReadP

/-- The start-indices index (r, 0, 0) of result index (r, 0). -/
abbrev i3 (j : S16384x1.Idx) : S16384x1x1.Idx := fun a => match a with
  | ⟨0, _⟩ => ⟨(j 0).val, (j 0).isLt⟩
  | ⟨1, _⟩ => ⟨0, Nat.one_pos⟩
  | ⟨2, _⟩ => ⟨0, Nat.one_pos⟩

/-- The batched indexed read at (r, 0): the operand at row r, at the start index of row r read signed and clamped into
    [0, 2047]. The row coordinate is the batching coordinate (the start and the offset are 0 there); the column is the
    clamped start (the batching and offset coordinates are 0 there). -/
theorem gather_row_apply {α : Type} {w : Nat} (x : S16384x2048.Idx → α) (idx : IVec S16384x1x1 w) (j : S16384x1.Idx) :
    Host.gather gather_S16384x2048_S16384x1x1_S16384x1_n_1_0_0_1_2_11 x idx j
      = x (ix2 ⟨(j 0).val, (j 0).isLt⟩ ⟨min (idx (i3 j)).toInt.toNat 2047, by omega⟩) := by
  unfold Host.gather
  congr 1
  funext a
  refine Fin.ext ?_
  match a with
  | ⟨0, _⟩ =>
    show gather_S16384x2048_S16384x1x1_S16384x1_n_1_0_0_1_2_11.start j idx 0
      + gather_S16384x2048_S16384x1x1_S16384x1_n_1_0_0_1_2_11.batchCoord j 0
      + gather_S16384x2048_S16384x1x1_S16384x1_n_1_0_0_1_2_11.offCoord j 0 = (j 0).val
    rw [GatherDims.start_batching _ _ _ _ (show (0 : Fin 2) ∈ gather_S16384x2048_S16384x1x1_S16384x1_n_1_0_0_1_2_11.operandBatchingDims from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16384x2048_S16384x1x1_S16384x1_n_1_0_0_1_2_11.operandBatchingDims from List.mem_singleton.mpr rfl)]
    rfl
  | ⟨1, _⟩ =>
    show gather_S16384x2048_S16384x1x1_S16384x1_n_1_0_0_1_2_11.start j idx 1
      + gather_S16384x2048_S16384x1x1_S16384x1_n_1_0_0_1_2_11.batchCoord j 1
      + gather_S16384x2048_S16384x1x1_S16384x1_n_1_0_0_1_2_11.offCoord j 1 = min (idx (i3 j)).toInt.toNat 2047
    rw [GatherDims.batchCoord_eq_zero _ _ _ (show (1 : Fin 2) ∉ gather_S16384x2048_S16384x1x1_S16384x1_n_1_0_0_1_2_11.operandBatchingDims by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x2048_S16384x1x1_S16384x1_n_1_0_0_1_2_11.startIndexMap from List.mem_singleton.mpr rfl)]
    have hsi : gather_S16384x2048_S16384x1x1_S16384x1_n_1_0_0_1_2_11.siIdx j ⟨List.idxOf (1 : Fin 2) gather_S16384x2048_S16384x1x1_S16384x1_n_1_0_0_1_2_11.startIndexMap,
        List.idxOf_lt_length_iff.2 (List.mem_singleton.mpr rfl)⟩ = i3 j := by
      funext b; refine Fin.ext ?_
      match b with
      | ⟨0, _⟩ => rfl
      | ⟨1, _⟩ =>
        have h1 : (j 1).val < 1 := (j 1).isLt
        show (j 1).val = 0
        omega
      | ⟨2, _⟩ => rfl
    rw [hsi]
    rfl

open Idealize.ShloMosaic.StableHlo.Predicate in
/-- A class index below 2048, as a signed word: non-negative, at most 2047, and its signed reading clamped is itself. -/
theorem word_facts (y : BitVec 32) (hy : y.toNat < 2048) :
    IntOp.cmpi .slt y 0#32 = 0#1 ∧ IntOp.cmpi .sge y 0#32 = 1#1 ∧ IntOp.cmpi .sle y 2047#32 = 1#1
      ∧ min y.toInt.toNat 2047 = y.toNat := by
  have h31 : y.toNat < 2 ^ 31 := by omega
  have h0 : (0#32).toNat < 2 ^ 31 := by decide
  have h2047 : (2047#32).toNat < 2 ^ 31 := by decide
  refine ⟨?_, ?_, ?_, ?_⟩
  · refine eq_zero_of_ne_one fun h => ?_
    have := (slt_iff_toNat h31 h0).1 h
    simp at this
  · exact (sge_iff_toNat h31 h0).2 (by simp)
  · refine (sle_iff_toNat h31 h2047).2 ?_
    show y.toNat ≤ 2047
    omega
  · rw [toInt_eq_toNat_of_lt h31, Int.toNat_natCast]
    omega

/-- The reference's class-index stage is y = max(t − 1, 0). -/
theorem v25_eq (x2 : (⟨S16384, .i32⟩ : BufTy).Contents (Elt Ideal)) (j : S16384.Idx) :
    val_main_v25 (F := Ideal) x2 j = yOf (x2 j) := by
  rw [val_main_v25_apply, val_main_v23_apply, val_main_v22_apply, val_main_c_6_apply, val_main_v24_apply,
    val_main_c_7_apply]
  rfl

section Index
variable (x1 : (⟨S16384x2048, .f32⟩ : BufTy).Contents (Elt Ideal)) (x2 : (⟨S16384, .i32⟩ : BufTy).Contents (Elt Ideal))

/-- The class index, broadcast to a column, at row (k 0). -/
theorem v26_eq (k : S16384x1.Idx) :
    val_main_v26 (F := Ideal) x2 k = yOf (x2 (ix1 ⟨(k 0).val, (k 0).isLt⟩)) := by
  rw [val_main_v26_apply, v25_eq]
  exact congrArg (fun q => yOf (x2 q)) (funext fun a => match a with | ⟨0, _⟩ => rfl)

variable (hy : ∀ i : S16384.Idx, (yOf (x2 i)).toNat < 2048)
include hy

/-- A class index is non-negative, so the negative-index normalisation leaves it. -/
theorem v4_eq (k : S16384x1.Idx) :
    val_main_call1_v4 (F := Ideal) x2 k = yOf (x2 (ix1 ⟨(k 0).val, (k 0).isLt⟩)) := by
  rw [val_main_call1_v4_apply, val_main_call1_v1_apply, val_main_call1_v0_apply, val_main_call1_c_apply, v26_eq,
    (word_facts _ (hy _)).1, select_zero]

/-- The start index of row (i 0), at any index of the [16384, 1, 1] table. -/
theorem v5_eq (i : S16384x1x1.Idx) :
    val_main_call1_v5 (F := Ideal) x2 i = yOf (x2 (ix1 ⟨(i 0).val, (i 0).isLt⟩)) := by
  rw [val_main_call1_v5_apply, v4_eq x2 hy]
  refine congrArg (fun q => yOf (x2 q)) (funext fun a => match a with | ⟨0, _⟩ => Fin.ext ?_)
  have h1 : (i 1).val < 1 := (i 1).isLt
  have h2 : (i 2).val < 1 := (i 2).isLt
  show (((i 0).val * 1 + (i 1).val) * 1 + (i 2).val) / 1 = (i 0).val
  omega

/-- The bounds test passes at every index. -/
theorem v11_eq (i : S16384x1x1.Idx) : val_main_call1_v11 (F := Ideal) x2 i = 1#1 := by
  rw [val_main_call1_v11_apply, val_main_call1_v7_apply, val_main_call1_v10_apply, val_main_call1_v6_apply,
    val_main_call1_c_2_apply, val_main_call1_v9_apply, val_main_call1_v8_apply, val_main_call1_c_1_apply,
    v5_eq x2 hy, (word_facts _ (hy _)).2.1, (word_facts _ (hy _)).2.2.1]
  rfl

omit hy in
/-- A left fold by "and" from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- The reduced bounds test is 1 at every row. -/
theorem v12_eq (k : S16384x1.Idx) : val_main_call1_v12 (F := Ideal) x2 k = 1#1 := by
  unfold val_main_call1_v12
  rw [Host.reduce_eq_foldl, val_main_call1_c_3_apply]
  exact foldl_andi_one _ (v11_eq x2 hy) _

/-- The gather reads the score at the label's class. -/
theorem v13_eq (k : S16384x1.Idx) :
    val_main_call1_v13 (F := Ideal) x1 x2 k
      = x1 (ix2 ⟨(k 0).val, (k 0).isLt⟩ ⟨(yOf (x2 (ix1 ⟨(k 0).val, (k 0).isLt⟩))).toNat, hy _⟩) := by
  unfold val_main_call1_v13
  refine (gather_row_apply _ _ k).trans (congrArg x1 (funext fun a => match a with
    | ⟨0, _⟩ => rfl
    | ⟨1, _⟩ => Fin.ext ?_))
  show min (val_main_call1_v5 (F := Ideal) x2 (i3 k)).toInt.toNat 2047 = _
  rw [v5_eq x2 hy]
  exact (word_facts _ (hy _)).2.2.2

/-- The indexed read x[y] of the reference, at row (k 0). -/
theorem v27_eq (k : S16384x1.Idx) :
    val_main_v27 (F := Ideal) x1 x2 k
      = x1 (ix2 ⟨(k 0).val, (k 0).isLt⟩ ⟨(yOf (x2 (ix1 ⟨(k 0).val, (k 0).isLt⟩))).toNat, hy _⟩) := by
  rw [val_main_v27_apply, v12_eq x2 hy, select_one, v13_eq x1 x2 hy]

end Index

open Idealize.ShloMosaic.StableHlo.Predicate in
/-- The masked sum ∑_j [j = y] · x[j] has one term when y is a class index: x[y]. -/
theorem row_eq_xySum (row : Fin 2048 → EReal) (t : BitVec 32) (h : (yOf t).toNat < 2048) :
    row ⟨(yOf t).toNat, h⟩ = xySum row t := by
  unfold xySum
  rw [Finset.sum_eq_single (⟨(yOf t).toNat, h⟩ : Fin 2048)]
  · have hh : hitOf t ⟨(yOf t).toNat, h⟩ = 1#1 := by
      unfold hitOf
      refine cmpi_eq_iff.2 (BitVec.eq_of_toNat_eq ?_)
      rw [BitVec.toNat_ofNat]
      exact Nat.mod_eq_of_lt (yOf t).isLt
    rw [hh, select_one]
  · intro j _ hj
    have hh : hitOf t j = 0#1 := by
      refine eq_zero_of_ne_one fun e => hj (Fin.ext ?_)
      unfold hitOf at e
      have e' := congrArg BitVec.toNat (cmpi_eq_iff.1 e)
      rw [BitVec.toNat_ofNat] at e'
      have hj' : j.val < 2048 := j.isLt
      show j.val = (yOf t).toNat
      omega
    rw [hh, select_zero]
    exact Ideal.ofBits_zero_f32
  · intro hn
    exact absurd (Finset.mem_univ _) hn

section Halves
variable (x0 : (⟨S16384, .f32⟩ : BufTy).Contents (Elt Ideal)) (x1 : (⟨S16384x2048, .f32⟩ : BufTy).Contents (Elt Ideal))
  (x2 : (⟨S16384, .i32⟩ : BufTy).Contents (Elt Ideal))

/-- The cross-entropy stage is the specification's term, sample by sample. -/
theorem v19_eq (j : S16384.Idx) : val_main_v19 (F := Ideal) x0 x2 j = bceTerm (x0 j) (x2 j) := by
  rw [val_main_v19_apply, val_main_v18_apply, val_main_v5_apply, val_main_v4_apply, val_main_v2_apply,
    val_main_v1_apply, val_main_v0_apply, val_main_c_apply, val_main_v3_apply, val_main_cst_apply,
    val_main_call0_v0_apply, val_main_cst_0_apply, val_main_call0_v1_apply, val_main_cst_1_apply,
    val_main_v17_apply, val_main_v13_apply, val_main_v2_apply, val_main_v1_apply, val_main_v0_apply, val_main_c_apply,
    val_main_v8_apply, val_main_v6_apply, val_main_v7_apply, val_main_cst_2_apply,
    val_main_v16_apply, val_main_v15_apply, val_main_v14_apply, val_main_cst_4_apply,
    val_main_v12_apply, val_main_v10_apply, val_main_v9_apply, val_main_v11_apply, val_main_cst_3_apply]
  rfl

end Halves

section Margin
variable (x1 : (⟨S16384x2048, .f32⟩ : BufTy).Contents (Elt Ideal)) (x2 : (⟨S16384, .i32⟩ : BufTy).Contents (Elt Ideal))
  (hy : ∀ i : S16384.Idx, (yOf (x2 i)).toNat < 2048)
include hy

/-- One summand of the margin stage: 0 at the label's class, else the hinge against x[y]. -/
theorem v40_eq (i : S16384.Idx) (k : Fin 2048) :
    val_main_v40 (F := Ideal) x1 x2 (idx_main_v41 i k)
      = Scalar.select (hitOf (x2 i) k) zeroW (hinge (xySum (rowOf x1 (i 0)) (x2 i)) (rowOf x1 (i 0) k)) := by
  have hi : (ix1 ⟨((idx_main_v41 i k) 0).val, ((idx_main_v41 i k) 0).isLt⟩ : S16384.Idx) = i :=
    funext fun a => match a with | ⟨0, _⟩ => rfl
  have hq : idx_main_v41 i k = ix2 (i 0) k := funext fun a => match a with | ⟨0, _⟩ => rfl | ⟨1, _⟩ => rfl
  rw [val_main_v40_apply, val_main_v39_apply, val_main_v37_apply, val_main_v35_apply, val_main_v34_apply,
    val_main_v38_apply, val_main_v36_apply, v25_eq,
    val_main_call2_v1_apply, val_main_call2_v0_apply, val_main_cst_10_apply,
    val_main_v33_apply, val_main_v32_apply, val_main_cst_9_apply, val_main_v31_apply, val_main_v30_apply,
    val_main_v29_apply, val_main_v28_apply, val_main_cst_8_apply, v27_eq x1 x2 hy]
  have hxy : x1 (ix2 ⟨((idx_main_v30 (idx_main_v41 i k)) 0).val, ((idx_main_v30 (idx_main_v41 i k)) 0).isLt⟩
      ⟨(yOf (x2 (ix1 ⟨((idx_main_v30 (idx_main_v41 i k)) 0).val, ((idx_main_v30 (idx_main_v41 i k)) 0).isLt⟩))).toNat, hy _⟩)
      = xySum (rowOf x1 (i 0)) (x2 i) := by
    rw [← row_eq_xySum (rowOf x1 (i 0)) (x2 i) (hy i)]
    show x1 _ = x1 _
    have hi' : (ix1 ⟨((idx_main_v30 (idx_main_v41 i k)) 0).val, ((idx_main_v30 (idx_main_v41 i k)) 0).isLt⟩ : S16384.Idx) = i :=
      funext fun a => match a with | ⟨0, _⟩ => rfl
    refine congrArg x1 (funext fun a => match a with
      | ⟨0, _⟩ => rfl
      | ⟨1, _⟩ => Fin.ext ?_)
    show (yOf (x2 _)).toNat = (yOf (x2 i)).toNat
    rw [hi']
  rw [hxy, hq]
  have hm : (idx_main_v36 (idx_main_v38 (ix2 (i 0) k)) : S16384.Idx) = i :=
    funext fun a => match a with | ⟨0, _⟩ => rfl
  rw [hm]
  rfl

/-- The margin stage is the specification's term, sample by sample. -/
theorem v46_eq (i : S16384.Idx) : val_main_v46 (F := Ideal) x1 x2 i = mmlAt x1 (x2 i) (i 0) := by
  rw [val_main_v46_apply, val_main_v45_apply, val_main_v23_apply, val_main_v22_apply, val_main_c_6_apply,
    val_main_v44_apply, val_main_c_13_apply, val_main_call3_v1_apply, val_main_call3_v0_apply, val_main_cst_14_apply,
    val_main_v43_apply, val_main_v42_apply, val_main_cst_12_apply, val_main_v41_apply, val_main_cst_11_apply]
  simp only [v40_eq x1 x2 hy]
  rfl

end Margin

/-- The reference's last stage is the loss, at its one index. -/
theorem ref_is_loss (x0 : (⟨S16384, .f32⟩ : BufTy).Contents (Elt Ideal)) (x1 : (⟨S16384x2048, .f32⟩ : BufTy).Contents (Elt Ideal))
    (x2 : (⟨S16384, .i32⟩ : BufTy).Contents (Elt Ideal)) (hy : ∀ i : S16384.Idx, (yOf (x2 i)).toNat < 2048) :
    val_main_v48 (F := Ideal) x0 x1 x2 = fun _ => loss x0 x1 x2 := by
  funext i
  rw [val_main_v48_apply, val_main_v21_apply, val_main_v20_apply, val_main_v47_apply, val_main_cst_5_apply,
    val_main_cst_15_apply]
  simp only [v19_eq, v46_eq x1 x2 hy]
  rfl

end Cert.Margin

end
-- ==== Proof.TilePieces.lean ====
/-
  What one grid point leaves in the accumulator's staging buffer, as a value.

  The body has two control cases.  At the first point it stores the zero block, then reads the accumulator back and stores
  the tile's value over it; at every later point it reads the accumulator the point before left and stores the tile's
  value over it.  In both cases the buffer ends holding the one covering store's payload: the tile's arithmetic of the
  three input blocks and of the accumulator read before it — the zero block in the first case, the carried contents in
  the second.
-/
import proofs.«428601_j82635170775477_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.LossValue

open Cert.KernelIdeal Cert.KernelIdeal.Gen

variable {F : FTy → Type} [FloatOps F]

theorem hz : (![0, 0] : Fin 2 → Nat) = fun _ => 0 := funext fun a => by fin_cases a <;> rfl

/-- The tile's stored value as a function of the three input blocks and the accumulator read before the store. -/
abbrev tileValue (x0 : Vec F S512x1 .f32) (x1 : Vec F S512x1 .i32) (x2 : Vec F S512x2048 .f32) (acc : Vec F S1x1 .f32) :
    Vec F S1x1 .f32 :=
  k0_pay1 x2 (k0_pay4 x0 x1) (k0_pay5 (F := F) x1) k0_pay6 acc

/-- A later point: the accumulator holding `xo` ends at the tile's value over `xo`. -/
theorem out_B (c : Dev nD) (i : grid0.Coords) (a1 : Memref sig .tc .vmem S512x1 .f32) (h1 : a1.IsWhole)
    (a2 : Memref sig .tc .vmem S512x1 .i32) (h2 : a2.IsWhole) (a3 : Memref sig .tc .vmem S512x2048 .f32) (h3 : a3.IsWhole)
    (a4 : Memref sig .tc .vmem S1x1 .f32) (h4 : a4.IsWhole) (hc : ¬cond0_0 i)
    (x0 : Vec F S512x1 .f32) (x1 : Vec F S512x1 .i32) (x2 : Vec F S512x2048 .f32) (xo : Vec F S1x1 .f32) :
    out0_B_3 c i a1 h1 a2 h2 a3 h3 a4 h4 hc x0 x1 x2 xo = tileValue x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S512x1) hz, View.ld_unit_zero (S := S512x2048) hz, View.ld_unit_zero (S := S1x1) hz]

/-- The first point: the accumulator ends at the tile's value over the zero block. -/
theorem out_A (c : Dev nD) (i : grid0.Coords) (a1 : Memref sig .tc .vmem S512x1 .f32) (h1 : a1.IsWhole)
    (a2 : Memref sig .tc .vmem S512x1 .i32) (h2 : a2.IsWhole) (a3 : Memref sig .tc .vmem S512x2048 .f32) (h3 : a3.IsWhole)
    (a4 : Memref sig .tc .vmem S1x1 .f32) (h4 : a4.IsWhole) (hc : cond0_0 i)
    (x0 : Vec F S512x1 .f32) (x1 : Vec F S512x1 .i32) (x2 : Vec F S512x2048 .f32) :
    out0_A_3 c i a1 h1 a2 h2 a3 h3 a4 h4 hc x0 x1 x2 = tileValue x0 x1 x2 (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S512x1) hz, View.ld_unit_zero (S := S512x2048) hz, View.ld_unit_zero (S := S1x1) hz]

end Cert.KernelIdeal.LossValue

end
-- ==== Proof.TilePayload.lean ====
/-
  One tile's arithmetic, read at the accumulator's one entry: the value the body stores is
  (acc + (0 − ∑_k bce_k)) + ∑_k mml_k over the tile's 512 samples, in the specification's own terms.
-/
import proofs.«428601_j82635170775477_1_alg».proof.Proof.Gen.KernelIdeal.Skeleton
import proofs.«428601_j82635170775477_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.LossValue

open Cert.KernelIdeal Cert.KernelIdeal.Gen Cert.Margin

/-! ### The layout steps, each read at an index -/

section Layout
variable {α : Type}

/-- The accumulator's shape has one index. -/
theorem idx11 (j : S1x1.Idx) : j = ix2 (0 : Fin 1) (0 : Fin 1) := by
  funext a
  match a with
  | ⟨0, _⟩ => exact Fin.ext (Nat.lt_one_iff.mp (idx2_lt0 j))
  | ⟨1, _⟩ => exact Fin.ext (Nat.lt_one_iff.mp (idx2_lt1 j))

/-- A vector of length a viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] copied along b columns reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column counter reads its column. -/
theorem iota_cols_apply (h : S512x2048.Iotas .tc 32 [1]) (k : Fin 512) (q : Fin 2048) :
    iota .tc S512x2048 32 [1] h (ix2 k q) = BitVec.ofNat 32 q.val :=
  iota_single_apply .tc S512x2048 32 1 h (ix2 k q)

end Layout

/-! ### The two lane sums -/

/-- The sum down the 512 rows of a column, at the one entry left. -/
theorem rowsSum_apply (v : FVec Ideal S512x1 .f32) (h : S512x1.Reduces [0] S1) (hφ : FKind.Formats .f32)
    (hacc : (0x00000000#32 : BitVec 32) = FKind.add.neutral .f32 hφ) (j : S1.Idx) :
    multiReduction .add [0] S1 v 0x00000000#32 h hφ hacc j = ∑ k : Fin 512, v (ix2 k (0 : Fin 1)) := by
  refine (Ideal.multiReduction_add_single v _ h hφ hacc j).trans ?_
  refine Finset.sum_congr rfl fun k _ => congrArg v ?_
  funext a
  match a with
  | ⟨0, _⟩ => rfl
  | ⟨1, _⟩ => exact Fin.ext (Nat.lt_one_iff.mp (idx2_lt1 (n0 := 512) (n1 := 1) (h.lift j k)))

/-- The sum along the 2048 columns of a block, at row k. -/
theorem colsSum_apply (v : FVec Ideal S512x2048 .f32) (h : S512x2048.Reduces [1] S512) (hφ : FKind.Formats .f32)
    (hacc : (0x00000000#32 : BitVec 32) = FKind.add.neutral .f32 hφ) (k : Fin 512) :
    multiReduction .add [1] S512 v 0x00000000#32 h hφ hacc (ix1 k) = ∑ q : Fin 2048, v (ix2 k q) := by
  refine (Ideal.multiReduction_add_single v _ h hφ hacc (ix1 k)).trans ?_
  refine Finset.sum_congr rfl fun q _ => congrArg v ?_
  funext a
  match a with
  | ⟨0, _⟩ => rfl
  | ⟨1, _⟩ => rfl

/-! ### The remaining elementwise operations, read at an index: each acts entry by entry -/

section Pointwise
variable {s : Shape} {φ : FTy}

/-- The logarithm of an array at an index is the logarithm of the entry … -/
theorem log_apply (a : FVec Ideal s φ) (i : s.Idx) : log a i = Ideal.log (a i) := rfl
/-- … and so is log(1 + ·). -/
theorem log1p_apply (a : FVec Ideal s φ) (i : s.Idx) : log1p a i = Ideal.log1p (a i) := rfl
/-- A word comparison at an index compares the entries … -/
theorem cmpi_apply {w : ℕ} (p : CmpIPredicate) (a b : IVec s w) (i : s.Idx) : cmpi p a b i = IntOp.cmpi p (a i) (b i) := rfl
/-- … a word difference is the entries' difference … -/
theorem subi_apply {w : ℕ} (a b : IVec s w) (i : s.Idx) : subi a b i = IntOp.subi (a i) (b i) := rfl
/-- … and a signed maximum the entries' signed maximum. -/
theorem maxsi_apply {w : ℕ} (a b : IVec s w) (i : s.Idx) : maxsi a b i = IntOp.maxsi (a i) (b i) := rfl

end Pointwise

/-- A one-bit word widened and read signed is the bit read unsigned: 0 or 1 either way. -/
theorem pos_eq (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : ℤ) := by
    rcases BitVec.eq_zero_or_eq_one b with h | h <;> subst h <;> decide
  rw [h]; norm_cast

/-- The cross-entropy half: the first payload at the one entry is 0 − ∑_k bce_k.  The 512 rows are summed into one entry;
    at row k the product w · (pos · max(log p, −100) + (1 − pos) · max(log(1 + (0 − p)), −100)) is the specification's
    term once pos is read unsigned and 0 − p is written −p. -/
theorem bce_half (x0 : Vec Ideal S512x1 .f32) (x1 : Vec Ideal S512x1 .i32) :
    k0_pay4 (F := Ideal) x0 x1 (ix2 (0 : Fin 1) (0 : Fin 1))
      = zeroW - ∑ k : Fin 512, bceTerm (x0 (ix2 k 0)) (x1 (ix2 k 0)) := by
  unfold k0_pay4 k0_pay3
  simp only [shapeCast_self]
  rw [subf_apply, broadcast_apply, shapeCast_a_1a_apply]
  refine congrArg (zeroW - ·) ((rowsSum_apply _ _ _ _ _).trans (Finset.sum_congr rfl fun k _ => ?_))
  simp only [mulf_apply, addf_apply, subf_apply, maximumf_apply, select_apply, cmpf_apply, extui_apply, sitofp_apply,
    broadcast_apply, log_apply, log1p_apply, cmpi_apply, pos_eq, Ideal.ofBits_def]
  rw [Ideal.ofBits_zero_f32, zero_sub]
  rfl

/-- The zero word is the additive zero. -/
theorem zeroW_add (x : EReal) : zeroW + x = x :=
  (congrArg (· + x) Ideal.ofBits_zero_f32).trans (zero_add x)

/-- The margin half: the stored value at the one entry is (acc + v) + ∑_k mml_k for whatever v was added before.  Row k's
    term is the guarded quotient of its hinge sum by 2048; the hinge sum runs over the 2048 columns with the label's
    column masked to 0, and the score at the label's class inside each hinge is the masked row sum ∑_j [j = y] · x[k, j],
    the same for every column since it is a column copied along the row. -/
theorem mml_half (x1 : Vec Ideal S512x1 .i32) (x2 : Vec Ideal S512x2048 .f32) (v34 : FVec Ideal S1x1 .f32)
    (acc : Vec Ideal S1x1 .f32) :
    k0_pay1 (F := Ideal) x2 v34 (k0_pay5 (F := Ideal) x1) k0_pay6 acc (ix2 (0 : Fin 1) (0 : Fin 1))
      = (acc (ix2 0 0) + v34 (ix2 0 0))
        + ∑ k : Fin 512, mmlTerm (fun q : Fin 2048 => x2 (ix2 k q)) (x1 (ix2 k 0)) (xySum (fun q : Fin 2048 => x2 (ix2 k q)) (x1 (ix2 k 0))) := by
  unfold k0_pay1 k0_pay5 k0_pay6 k0_pay3
  simp only [shapeCast_self]
  rw [addf_apply, addf_apply, shapeCast_a_1a_apply]
  refine congrArg ((acc (ix2 0 0) + v34 (ix2 0 0)) + ·) ((rowsSum_apply _ _ _ _ _).trans (Finset.sum_congr rfl fun k _ => ?_))
  -- sample k: the guarded quotient
  simp only [select_apply, divf_apply, shapeCast_a_a1_apply, broadcast_apply, cmpi_apply, subi_apply, Ideal.ofBits_def]
  unfold mmlTerm validOf
  refine congrArg (fun z => Scalar.select _ (Ideal.div z classesW) zeroW) ?_
  rw [zeroW_add]
  refine (colsSum_apply _ _ _ _ k).trans (Finset.sum_congr rfl fun q _ => ?_)
  -- class q of sample k: the hinge off the label's class
  simp only [select_apply, cmpi_apply, broadcastTo_a1_ab_apply, maxsi_apply, subi_apply, broadcast_apply,
    maximumf_apply, addf_apply, subf_apply, shapeCast_a_a1_apply, Ideal.ofBits_def]
  rw [iota_cols_apply]
  unfold hinge hitOf yOf
  refine congrArg (fun z => Scalar.select _ zeroW (max zeroW ((marginW - z) + x2 (ix2 k q)))) ?_
  -- the score at the label's class, as the masked sum
  unfold xySum
  refine (colsSum_apply _ _ _ _ k).trans (Finset.sum_congr rfl fun j _ => ?_)
  simp only [select_apply, cmpi_apply, broadcastTo_a1_ab_apply, maxsi_apply, subi_apply, broadcast_apply,
    Ideal.ofBits_def]
  rw [iota_cols_apply]
  rfl

/-- The stored value at the accumulator's entry, from the tile's probability column `x0`, label column `x1`, score block
    `x2` and the accumulator `acc` read before it. -/
theorem payload_apply (x0 : Vec Ideal S512x1 .f32) (x1 : Vec Ideal S512x1 .i32) (x2 : Vec Ideal S512x2048 .f32)
    (acc : Vec Ideal S1x1 .f32) (j : S1x1.Idx) :
    k0_pay1 (F := Ideal) x2 (k0_pay4 (F := Ideal) x0 x1) (k0_pay5 (F := Ideal) x1) k0_pay6 acc j
      = (acc j + (zeroW - ∑ k : Fin 512, bceTerm (x0 (ix2 k 0)) (x1 (ix2 k 0))))
        + ∑ k : Fin 512, mmlTerm (fun q : Fin 2048 => x2 (ix2 k q)) (x1 (ix2 k 0)) (xySum (fun q : Fin 2048 => x2 (ix2 k q)) (x1 (ix2 k 0))) := by
  rw [idx11 j, mml_half, bce_half]

end Cert.KernelIdeal.LossValue

end
-- ==== Proof.TileRun.lean ====
/-
  The kernel's run, read as a value: after grid point n the accumulator holds the specification's running value
  `running … n`, so the result array — written back once, after the last point — and the scalar the host reshapes it to
  hold `running … 31`.

  Tile n's three input blocks are rows 512 n … 512 n + 511 of the probability column, the label column (both host
  reshapes [16384] → [16384, 1] of the arguments) and the score matrix; the first point starts from the zero block, every
  later point from what the point before left.
-/
import proofs.«428601_j82635170775477_1_alg».proof.Proof.TilePieces
import proofs.«428601_j82635170775477_1_alg».proof.Proof.TilePayload
import proofs.«428601_j82635170775477_1_alg».proof.Proof.Spec
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.LossValue

open Cert.KernelIdeal Cert.KernelIdeal.Gen Cert.Margin

variable (m : (ℓ : Loc nD τ sig) → Buf (Elt Ideal) ℓ) (ρ : Dev nD → PrngReg)

/-- The three argument arrays at launch. -/
abbrev ppArr (c : Dev nD) : FVec Ideal S16384 .f32 := m ((c : Thread nD τ).loc main_arg0)
abbrev predArr (c : Dev nD) : FVec Ideal S16384x2048 .f32 := m ((c : Thread nD τ).loc main_arg1)
abbrev tgtArr (c : Dev nD) : IVec S16384 32 := m ((c : Thread nD τ).loc main_arg2)

/-! ### The arrays the region finds -/

/-- The probability column the region reads is the host's reshape of the probabilities. -/
theorem probCol_eq (c : Dev nD) :
    (V m c main_v0 : FVec Ideal S16384x1 .f32) = shapeCast S16384x1 (ppArr m c) shapeCasts_S16384_S16384x1 := by
  show StableHlo.after hostOps0 (fun b => m (c, b)) (Proc.devRef .tc main_v0) = _
  after_results
  rfl

/-- The label column likewise. -/
theorem labelCol_eq (c : Dev nD) :
    (V m c main_v1 : IVec S16384x1 32) = shapeCast S16384x1 (tgtArr m c) shapeCasts_S16384_S16384x1 := by
  show StableHlo.after hostOps0 (fun b => m (c, b)) (Proc.devRef .tc main_v1) = _
  after_results
  rfl

/-- A vector kept as a column reads, at (r, 0), the vector at r: the same row-major position. -/
theorem col_apply {α : Type} (x : S16384.Idx → α) (r : Fin 16384) :
    shapeCast S16384x1 x shapeCasts_S16384_S16384x1 (ix2 r 0) = x (ix1 r) :=
  shapeCast_apply x _ _ _ (by
    rw [Shape.rowMajor_val_two, Shape.rowMajor_val_one]
    show r.val = r.val * 1 + 0
    omega)

/-- The three input windows step one block of 512 rows per grid point and stay in column block 0. -/
theorem idx_facts : ∀ t : Fin cfg0.N,
    win0_0.index t 0 = t.val ∧ win0_0.index t 1 = 0 ∧ win0_1.index t 0 = t.val ∧ win0_1.index t 1 = 0
      ∧ win0_2.index t 0 = t.val ∧ win0_2.index t 1 = 0 :=
  (by decide +kernel : ∀ t : Fin grid0.N,
    win0_0.index t 0 = t.val ∧ win0_0.index t 1 = 0 ∧ win0_1.index t 0 = t.val ∧ win0_1.index t 1 = 0
      ∧ win0_2.index t 0 = t.val ∧ win0_2.index t 1 = 0)

/-- Tile t's blocks, at their literal types. -/
abbrev ppBlk (c : Dev nD) (t : Fin cfg0.N) : Vec Ideal S512x1 .f32 := iblk m c 0 t
abbrev tgtBlk (c : Dev nD) (t : Fin cfg0.N) : Vec Ideal S512x1 .i32 := iblk m c 1 t
abbrev predBlk (c : Dev nD) (t : Fin cfg0.N) : Vec Ideal S512x2048 .f32 := iblk m c 2 t

/-- Row k of tile t's probability block is probability number 512 t + k. -/
theorem ppBlk_apply (c : Dev nD) (t : Fin cfg0.N) (k : Fin 512) :
    ppBlk m c t (ix2 k 0) = ppArr m c (ix1 (rowAt (t.val * 512 + k.val))) := by
  have hN : t.val < 32 := lt_of_lt_of_eq t.isLt (show cfg0.N = 32 from N_0)
  unfold ppBlk iblk
  rw [View.read_apply]
  show V m c main_v0 _ = _
  rw [probCol_eq]
  have e : ((cfg0.win 0).blk t).view.emb (ix2 k (0 : Fin 1)) = ix2 (rowAt (t.val * 512 + k.val)) (0 : Fin 1) := by
    funext a
    apply Fin.ext
    match a with
    | ⟨0, _⟩ =>
      show win0_0.index t 0 * 512 + 1 * k.val = (t.val * 512 + k.val) % 16384
      rw [(idx_facts t).1]
      have := k.isLt
      omega
    | ⟨1, _⟩ =>
      show win0_0.index t 1 * 1 + 1 * 0 = 0
      rw [(idx_facts t).2.1]
  rw [e]
  exact col_apply _ _

/-- Row k of tile t's label block is label number 512 t + k. -/
theorem tgtBlk_apply (c : Dev nD) (t : Fin cfg0.N) (k : Fin 512) :
    tgtBlk m c t (ix2 k 0) = tgtArr m c (ix1 (rowAt (t.val * 512 + k.val))) := by
  have hN : t.val < 32 := lt_of_lt_of_eq t.isLt (show cfg0.N = 32 from N_0)
  unfold tgtBlk iblk
  rw [View.read_apply]
  show V m c main_v1 _ = _
  rw [labelCol_eq]
  have e : ((cfg0.win 1).blk t).view.emb (ix2 k (0 : Fin 1)) = ix2 (rowAt (t.val * 512 + k.val)) (0 : Fin 1) := by
    funext a
    apply Fin.ext
    match a with
    | ⟨0, _⟩ =>
      show win0_1.index t 0 * 512 + 1 * k.val = (t.val * 512 + k.val) % 16384
      rw [(idx_facts t).2.2.1]
      have := k.isLt
      omega
    | ⟨1, _⟩ =>
      show win0_1.index t 1 * 1 + 1 * 0 = 0
      rw [(idx_facts t).2.2.2.1]
  rw [e]
  exact col_apply _ _

/-- Entry (k, q) of tile t's score block is the score of sample 512 t + k at class q. -/
theorem predBlk_apply (c : Dev nD) (t : Fin cfg0.N) (k : Fin 512) (q : Fin 2048) :
    predBlk m c t (ix2 k q) = predArr m c (ix2 (rowAt (t.val * 512 + k.val)) q) := by
  have hN : t.val < 32 := lt_of_lt_of_eq t.isLt (show cfg0.N = 32 from N_0)
  unfold predBlk iblk
  rw [View.read_apply]
  show V m c main_arg1 _ = _
  rw [V_main_arg1]
  refine congrArg (predArr m c) ?_
  funext a
  apply Fin.ext
  match a with
  | ⟨0, _⟩ =>
    show win0_2.index t 0 * 512 + 1 * k.val = (t.val * 512 + k.val) % 16384
    rw [(idx_facts t).2.2.2.2.1]
    have := k.isLt
    omega
  | ⟨1, _⟩ =>
    show win0_2.index t 1 * 2048 + 1 * q.val = q.val
    rw [(idx_facts t).2.2.2.2.2]
    omega

/-! ### One tile, in the specification's terms -/

/-- The reset's zero block reads the zero word. -/
theorem zeroBlock_apply (j : S1x1.Idx) : (k0_pay2 (F := Ideal)) j = zeroW := rfl

/-- Tile t's stored value over an accumulator `acc`: `acc` plus (0 − the tile's cross-entropy sum) plus the tile's
    margin sum, the sums over samples 512 t … 512 t + 511 of the argument arrays. -/
theorem tile_apply (c : Dev nD) (t : Fin cfg0.N) (acc : Vec Ideal S1x1 .f32) (j : S1x1.Idx) :
    tileValue (ppBlk m c t) (tgtBlk m c t) (predBlk m c t) acc j
      = (acc j + (zeroW - tileBce (ppArr m c) (tgtArr m c) t.val)) + tileMml (predArr m c) (tgtArr m c) t.val := by
  refine (payload_apply (ppBlk m c t) (tgtBlk m c t) (predBlk m c t) acc j).trans ?_
  have hb : (∑ k : Fin 512, bceTerm (ppBlk m c t (ix2 k 0)) (tgtBlk m c t (ix2 k 0)))
      = tileBce (ppArr m c) (tgtArr m c) t.val := by
    unfold tileBce
    refine Finset.sum_congr rfl fun k _ => ?_
    rw [ppBlk_apply, tgtBlk_apply]
  have hm : (∑ k : Fin 512, mmlTerm (fun q : Fin 2048 => predBlk m c t (ix2 k q)) (tgtBlk m c t (ix2 k 0))
        (xySum (fun q : Fin 2048 => predBlk m c t (ix2 k q)) (tgtBlk m c t (ix2 k 0))))
      = tileMml (predArr m c) (tgtArr m c) t.val := by
    unfold tileMml mmlAt
    refine Finset.sum_congr rfl fun k _ => ?_
    have hr : (fun q : Fin 2048 => predBlk m c t (ix2 k q)) = rowOf (predArr m c) (rowAt (t.val * 512 + k.val)) :=
      funext fun q => predBlk_apply m c t k q
    rw [hr, tgtBlk_apply]
  rw [hb, hm]

/-! ### The accumulator, point by point -/

/-- After grid point n the accumulator's one entry is the running value after tile n: at the first point the tile's
    value over the zero block, afterwards over what the point before left — by induction on the point. -/
theorem outsAt_eq (c : Dev nD) : ∀ (n : ℕ) (h : n < cfg0.N) (j : S1x1.Idx),
    outsAt0 m c n h j = running (ppArr m c) (predArr m c) (tgtArr m c) n
  | 0, h, j => by
    refine (congrFun (outsAt0_A m c ⟨0, h⟩ rfl) j).trans ?_
    refine (congrFun (out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr rfl)
      (ppBlk m c ⟨0, h⟩) (tgtBlk m c ⟨0, h⟩) (predBlk m c ⟨0, h⟩)) j).trans ?_
    refine (tile_apply m c ⟨0, h⟩ (k0_pay2 (F := Ideal)) j).trans ?_
    rw [zeroBlock_apply]
    rfl
  | n + 1, h, j => by
    have hN : n + 1 < 32 := lt_of_lt_of_eq h (show cfg0.N = 32 from N_0)
    have hB : ¬(⟨n + 1, h⟩ : Fin cfg0.N).val % 32 = 0 := by dsimp only; omega
    refine (congrFun (outsAt0_B m c ⟨n + 1, h⟩ hB) j).trans ?_
    refine (congrFun (out_B (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (ms0_3 ⟨n + 1, h⟩) (hs0_3 ⟨n + 1, h⟩)
      (fun h' => hB ((hcond0_0 ⟨n + 1, h⟩).mp h'))
      (ppBlk m c ⟨n + 1, h⟩) (tgtBlk m c ⟨n + 1, h⟩) (predBlk m c ⟨n + 1, h⟩)
      (outsAt0 m c n (Nat.lt_of_succ_lt h))) j).trans ?_
    refine (tile_apply m c ⟨n + 1, h⟩ (outsAt0 m c n (Nat.lt_of_succ_lt h)) j).trans ?_
    rw [outsAt_eq c n (Nat.lt_of_succ_lt h) j]
    rfl

/-! ### The result array and the scalar the host reshapes it to -/

/-- The last grid point, the only one after which the accumulator is written back. -/
abbrev lastPt : Fin cfg0.N := ⟨31, by rw [show cfg0.N = 32 from N_0]; decide⟩

/-- The running value after the last tile, as contents of the [1, 1] result array. -/
abbrev resultArr (c : Dev nD) : Buf (Elt Ideal) ((c : Thread nD τ).loc main_v2) :=
  fun _ => running (ppArr m c) (predArr m c) (tgtArr m c) 31

/-- The one write-back writes it: the accumulator after point 31, and block (0, 0) of the [1, 1] array read through
    zero offsets is the array. -/
theorem flushed_eq (c : Dev nD) (t : Fin cfg0.N) (hf : (cfg0.win 3).flush t = true) :
    (dats m 0 c).flushed 3 t = ((cfg0.win 3).blk t).view.read (Elt Ideal) (resultArr m c) := by
  have hN : cfg0.N = 32 := N_0
  have h31 : t.val = 31 := by have := (flush0_3 t).mp hf; have := t.isLt; omega
  obtain rfl : t = lastPt := Fin.ext h31
  show (cfg0.win 3).cut (grid0.coords lastPt) ((dats m 0 c).after 3 lastPt) = _
  rw [after0_3]
  have hacc : outsAt0 m c (lastPt : Fin cfg0.N).val (lastPt : Fin cfg0.N).isLt = resultArr m c :=
    funext fun j => outsAt_eq m c 31 _ j
  rw [hacc]
  have hz' : (fun a => win0_3.index lastPt a * main_v2.ty.shape.size a) = fun _ => 0 :=
    funext fun a => by fin_cases a <;> decide
  exact (Memref.read_access_unit_zero (Elt Ideal) main_v2 hz' (fun a => by rw [congrFun hz' a]; simp) (resultArr m c)).symm

/-- So the result array ends holding the running value after the last tile: point 31's block covers it. -/
theorem final_acc (c : Dev nD) : (dats m 0 c).arrAt 3 cfg0.N = resultArr m c :=
  (dats m 0 c).arrAt_eq_of_cover 3 (resultArr m c) (flushed_eq m c) fun i =>
    ⟨lastPt, (flush0_3 lastPt).mpr rfl, by
      show i ∈ ((View.whole main_v2).slice (win0_3.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index lastPt 0 * win0_3.size 0 ≤ (i 0 : Nat)
          ∧ (i 0 : Nat) < win0_3.index lastPt 0 * win0_3.size 0 + win0_3.xsize (grid0.coords lastPt) 0
        rw [show win0_3.index lastPt 0 * win0_3.size 0 = 0 from by decide +kernel,
          show win0_3.xsize (grid0.coords lastPt) 0 = 1 from by decide +kernel]
        omega
      | ⟨1, _⟩ =>
        show win0_3.index lastPt 1 * win0_3.size 1 ≤ (i 1 : Nat)
          ∧ (i 1 : Nat) < win0_3.index lastPt 1 * win0_3.size 1 + win0_3.xsize (grid0.coords lastPt) 1
        rw [show win0_3.index lastPt 1 * win0_3.size 1 = 0 from by decide +kernel,
          show win0_3.xsize (grid0.coords lastPt) 1 = 1 from by decide +kernel]
        omega⟩

/-- The host line after the region reshapes the [1, 1] array to a scalar: the same one number. -/
theorem scalar_eq (c : Dev nD) :
    Pipeline.afterTail₀ cfgs (dats m) 0 (V0 m) [hostOps1] c main_v3
      = fun _ => running (ppArr m c) (predArr m c) (tgtArr m c) 31 := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = resultArr m c :=
    (Pipeline.withArrays_arr spec0 launch0.win.arr_inj c _ _ 3).trans (final_acc m c)
  rw [hw]
  rfl

/-! ### The run -/

/-- Every weakly fair execution of the kernel's program terminates with its scalar result at the running value after
    the last tile and its three arguments unchanged. -/
theorem run : θ_run defs (onTc (τ := τ) (main (F := Ideal))) ⟨m, fun _ => 0, ρ⟩ fun r => ∀ c : Dev nD,
      r.2.mem ((c.tc : Thread nD τ).loc main_v3) = (fun _ => running (ppArr m c) (predArr m c) (tgtArr m c) 31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (scalar_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.LossValue

end
-- ==== Proof.lean ====
/-
  The weighted binary cross-entropy plus multi-margin loss over 16384 samples and 2048 classes: a kernel that streams the
  score matrix in 32 tiles of 512 rows and accumulates one scalar, against the whole-array computation.

  Over the extended reals both compute  −(∑_r bce_r) + ∑_r mml_r  (Proof/Spec.lean).  The kernel's accumulator after tile n
  is the running value  running n  (from 0, each tile adds 0 − its cross-entropy sum and then its margin sum), so its result
  is  running 31  (Proof/TileRun.lean over the two case values of Proof/TilePieces.lean and the tile's arithmetic of
  Proof/TilePayload.lean); the reference's result is the loss, its indexed read of x[y] being the masked sum the kernel
  forms because every label's class index is a class index (Proof/RefLoss.lean); and  running 31  is the loss because
  addition regroups freely while negating a sum term by term needs the cross-entropy terms to be real numbers, which they
  are for real probabilities (Proof/Algebra.lean).  The precondition supplies both facts: every probability finite, every
  label in 0 … 2048 (Proof/PreDecode.lean).

  The three frames: the kernel's two programs by their generated frame theorems, the reference's by its run with the
  result dropped.  The ideal pass rewrote nothing, so the kernel's idealization is its own text read over the extended
  reals.
-/
import proofs.«428601_j82635170775477_1_alg».proof.Defs
import proofs.«428601_j82635170775477_1_alg».proof.Proof.Gen.Kernel
import proofs.«428601_j82635170775477_1_alg».proof.Proof.Gen.Kernel.Frame
import proofs.«428601_j82635170775477_1_alg».proof.Proof.Gen.KernelIdeal
import proofs.«428601_j82635170775477_1_alg».proof.Proof.Gen.KernelIdeal.Frame
import proofs.«428601_j82635170775477_1_alg».proof.Proof.Gen.ReferenceIdeal
import proofs.«428601_j82635170775477_1_alg».proof.Proof.Gen.Pre_finite_inputs
import proofs.«428601_j82635170775477_1_alg».proof.Proof.RefRun
import proofs.«428601_j82635170775477_1_alg».proof.Proof.RefRead
import proofs.«428601_j82635170775477_1_alg».proof.Proof.Spec
import proofs.«428601_j82635170775477_1_alg».proof.Proof.Algebra
import proofs.«428601_j82635170775477_1_alg».proof.Proof.PreDecode
import proofs.«428601_j82635170775477_1_alg».proof.Proof.RefLoss
import proofs.«428601_j82635170775477_1_alg».proof.Proof.TileRun
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- No operation of the kernel was rewritten for the reading over the extended reals. -/
theorem preserves : Cert.preserves_Kernel_KernelIdeal := trivial

/-- From arguments that agree, the kernel ends at the running value after the last tile and the reference at the loss:
    the same extended real, under the precondition's two facts. -/
theorem algebraic : Cert.algebraic_KernelIdeal_ReferenceIdeal := by
  intro m ρ m' ρ' hpre hagree
  refine ⟨fun c => fun _ => Cert.Margin.running (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) 31,
    Cert.KernelIdeal.LossValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v48_eq, (hagree c).1, (hagree c).2.1, (hagree c).2.2]
  rw [Cert.Margin.ref_is_loss _ _ _ (Cert.Margin.class_index_of_pre _ _ _ (hpre c))]
  funext _
  exact (Cert.Margin.running_eq_loss _ _ _ (Cert.Margin.prob_real_of_pre _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
